-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_
  bcast_S_S16384x4096 : S_.BroadcastsInDim S16384x4096 (![] : Fin 0 → Fin S16384x4096.rank)
  reducesTo_S16384x4096_S_d0_1 : S16384x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x16384 .f32) (main_arg2 : FVec F S16384 .f32) (main_arg3 : FVec F S16384x4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_arg4 main_v13 main_v16
-- ==== Kernel.lean ====
abbrev S4x2048x4096 : Shape := ⟨3, ![4, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S8192x4096 : Shape := ⟨2, ![8192, 4096]⟩
abbrev S1x16384 : Shape := ⟨2, ![1, 16384]⟩
abbrev S1x4096 : Shape := ⟨2, ![1, 4096]⟩
abbrev S512x4096 : Shape := ⟨2, ![512, 4096]⟩
abbrev S4096x128 : Shape := ⟨2, ![4096, 128]⟩
abbrev S1x128 : Shape := ⟨2, ![1, 128]⟩
abbrev S128x4096 : Shape := ⟨2, ![128, 4096]⟩
abbrev S512x128 : Shape := ⟨2, ![512, 128]⟩

abbrev nBuf : Space → Nat
  | .hbm => 13
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .f32⟩
  | .hbm, ⟨2, _⟩ => ⟨S16384, .f32⟩
  | .hbm, ⟨3, _⟩ => ⟨S16384x4096, .f32⟩
  | .hbm, ⟨4, _⟩ => ⟨S4096, .f32⟩
  | .hbm, ⟨5, _⟩ => ⟨S8192x4096, .f32⟩
  | .hbm, ⟨6, _⟩ => ⟨S8192x4096, .bf16⟩
  | .hbm, ⟨7, _⟩ => ⟨S4096x16384, .bf16⟩
  | .hbm, ⟨8, _⟩ => ⟨S16384x4096, .bf16⟩
  | .hbm, ⟨9, _⟩ => ⟨S1x16384, .f32⟩
  | .hbm, ⟨10, _⟩ => ⟨S1x4096, .f32⟩
  | .hbm, ⟨11, _⟩ => ⟨S8192x4096, .f32⟩
  | .hbm, ⟨12, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S4096x128, .bf16⟩
  | .local _ .vmem, ⟨3, _⟩ => ⟨S4096x128, .bf16⟩
  | .local _ .vmem, ⟨4, _⟩ => ⟨S1x128, .f32⟩
  | .local _ .vmem, ⟨5, _⟩ => ⟨S1x128, .f32⟩
  | .local _ .vmem, ⟨6, _⟩ => ⟨S128x4096, .bf16⟩
  | .local _ .vmem, ⟨7, _⟩ => ⟨S128x4096, .bf16⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | .local _ .vmem, ⟨11, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 128], ![false, false]⟩

def k0_cond2 (i : grid0.Coords) : BitVec 1 :=
  let arg1 : BitVec 32 := BitVec.ofNat 32 (i 1).val
  let c127_i32 : BitVec 32 := 127#32
  let v34 : BitVec 1 := Scalar.cmpi .eq arg1 c127_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x2048x4096_S8192x4096 : S4x2048x4096.ShapeCasts S8192x4096
  bitsLt_bf16_f32 : FTy.bits .bf16 < FTy.bits .f32
  shapeCasts_S16384_S1x16384 : S16384.ShapeCasts S1x16384
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S8192x4096_S4x2048x4096 : S8192x4096.ShapeCasts S4x2048x4096
  dot_S512x4096_S4096x128_S512x128_1_0_0_1_n_n_wf : DotDims.WF S512x4096 S4096x128 S512x128 [1] [0] [0] [1] [] []
  dot_S512x128_S128x4096_S512x4096_1_0_0_1_n_n_wf : DotDims.WF S512x128 S128x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x16384.size a
  hwx0_1 : ∀ i : grid0.Coords, EltTy.bits .bf16 = 32 ∨ (Rect.block (s := S4096x16384) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x16384.size a
  hwx0_2 : ∀ i : grid0.Coords, EltTy.bits .f32 = 32 ∨ (Rect.block (s := S1x16384) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S16384x4096.size a
  hwx0_3 : ∀ i : grid0.Coords, EltTy.bits .bf16 = 32 ∨ (Rect.block (s := S16384x4096) S128x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S8192x4096.size a
  hwx0_5 : ∀ i : grid0.Coords, EltTy.bits .f32 = 32 ∨ (Rect.block (s := S8192x4096) S512x4096.size (cc0_transform_5 i) (hinb0_5 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S4x2048x16384 : Shape := ⟨3, ![4, 2048, 16384]⟩
abbrev S1x1x16384 : Shape := ⟨3, ![1, 1, 16384]⟩
abbrev S_ : Shape := ⟨0, ![]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .f32⟩
  | .hbm, ⟨2, _⟩ => ⟨S16384, .f32⟩
  | .hbm, ⟨3, _⟩ => ⟨S16384x4096, .f32⟩
  | .hbm, ⟨4, _⟩ => ⟨S4096, .f32⟩
  | .hbm, ⟨5, _⟩ => ⟨S4x2048x16384, .f32⟩
  | .hbm, ⟨6, _⟩ => ⟨S1x1x16384, .f32⟩
  | .hbm, ⟨7, _⟩ => ⟨S4x2048x16384, .f32⟩
  | .hbm, ⟨8, _⟩ => ⟨S4x2048x16384, .f32⟩
  | .hbm, ⟨9, _⟩ => ⟨S4x2048x16384, .f32⟩
  | .hbm, ⟨10, _⟩ => ⟨S4x2048x16384, .f32⟩
  | .hbm, ⟨11, _⟩ => ⟨S_, .f32⟩
  | .hbm, ⟨12, _⟩ => ⟨S4x2048x16384, .f32⟩
  | .hbm, ⟨13, _⟩ => ⟨S4x2048x16384, .f32⟩
  | .hbm, ⟨14, _⟩ => ⟨S4x2048x16384, .f32⟩
  | .hbm, ⟨15, _⟩ => ⟨S_, .f32⟩
  | .hbm, ⟨16, _⟩ => ⟨S4x2048x16384, .f32⟩
  | .hbm, ⟨17, _⟩ => ⟨S4x2048x16384, .f32⟩
  | .hbm, ⟨18, _⟩ => ⟨S4x2048x16384, .f32⟩
  | .hbm, ⟨19, _⟩ => ⟨S_, .f32⟩
  | .hbm, ⟨20, _⟩ => ⟨S4x2048x16384, .f32⟩
  | .hbm, ⟨21, _⟩ => ⟨S4x2048x16384, .f32⟩
  | .hbm, ⟨22, _⟩ => ⟨S_, .f32⟩
  | .hbm, ⟨23, _⟩ => ⟨S4x2048x16384, .f32⟩
  | .hbm, ⟨24, _⟩ => ⟨S4x2048x16384, .f32⟩
  | .hbm, ⟨25, _⟩ => ⟨S4x2048x16384, .f32⟩
  | .hbm, ⟨26, _⟩ => ⟨S4x2048x4096, .f32⟩
  | .hbm, ⟨27, _⟩ => ⟨S1x1x4096, .f32⟩
  | .hbm, ⟨28, _⟩ => ⟨S4x2048x4096, .f32⟩
  | .hbm, ⟨29, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  bcast_S_S4x2048x16384 : S_.BroadcastsInDim S4x2048x16384 (![] : Fin 0 → Fin S4x2048x16384.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x16384_S4x2048x16384_2_0_01_1_n_n_wf : DotDims.WF S4x2048x4096 S4096x16384 S4x2048x16384 [2] [0] [0, 1] [1] [] []
  dot_S4x2048x16384_S16384x4096_S4x2048x4096_2_0_01_1_n_n_wf : DotDims.WF S4x2048x16384 S16384x4096 S4x2048x4096 [2] [0] [0, 1] [1] [] []

variable [Facts₀]

def dot_S4x2048x4096_S4096x16384_S4x2048x16384_2_0_01_1_n_n : DotDims S4x2048x4096 S4096x16384 S4x2048x16384 where
  lhsContracting := [2]
  rhsContracting := [0]
  lhsNonContracting := [0, 1]
  rhsNonContracting := [1]
  lhsBatch := []
  rhsBatch := []
  wf := dot_S4x2048x4096_S4096x16384_S4x2048x16384_2_0_01_1_n_n_wf
def dot_S4x2048x16384_S16384x4096_S4x2048x4096_2_0_01_1_n_n : DotDims S4x2048x16384 S16384x4096 S4x2048x4096 where
  lhsContracting := [2]
  rhsContracting := [0]
  lhsNonContracting := [0, 1]
  rhsNonContracting := [1]
  lhsBatch := []
  rhsBatch := []
  wf := dot_S4x2048x16384_S16384x4096_S4x2048x4096_2_0_01_1_n_n_wf

class Facts : Prop extends Facts₀ where

variable [Facts]
-- ==== Proof.Spec.lean ====
/-
  The mathematics of a two-layer perceptron with the tanh-approximated GELU between its layers, over the extended
  reals: for a row `r` of the flattened input and an output column `d`,

      out r d = (∑ f, gelu ((∑ k, X r k · W1 k f) + B1 f) · W2 f d) + B2 d,

  the hidden axis `f` of extent 16384 = 128 · 128. The same sum taken one block of 128 hidden columns at a
  time — block `j` contributes `∑ f' < 128` of the terms at `f = 128 j + f'` — is the whole sum: addition of
  extended reals is commutative and associative, so regrouping needs no finiteness.
-/
import Idealize.ShloMosaic.PureOps.Ideal
import Idealize.ShloMosaic.PureOps.Ideal.Laws
import Idealize.ShloMosaic.Lib.ValueIdx
import Mathlib.Algebra.BigOperators.Fin
import Mathlib.Data.Fintype.BigOperators
import Mathlib.Logic.Equiv.Fin.Basic

noncomputable section

open Idealize.ShloMosaic Idealize.ShloMosaic.ValueIdx

namespace Cert.Mlp

/-- The tanh-approximated GELU, `u · (½ · (1 + tanh (s · (u + c · u³))))`, the four constants kept as the f32
    patterns both programs carry (½, 1, s = f32 √(2/π), c = f32 0.044715) and the cube spelled `u · (u · u)`. -/
def gelu (u : EReal) : EReal :=
  u * (Ideal.ofBits .f32 0x3F000000#32 * (Ideal.ofBits .f32 0x3F800000#32
    + Ideal.tanh (Ideal.ofBits .f32 0x3F4C422A#32 * (u + Ideal.ofBits .f32 0x3D372713#32 * (u * (u * u))))))

/-- The cube spelled `(u · u) · u` gives the same value: multiplication of extended reals commutes. -/
theorem gelu_cube_left (u : EReal) :
    u * (Ideal.ofBits .f32 0x3F000000#32 * (Ideal.ofBits .f32 0x3F800000#32
      + Ideal.tanh (Ideal.ofBits .f32 0x3F4C422A#32 * (u + Ideal.ofBits .f32 0x3D372713#32 * (u * u * u))))) = gelu u := by
  unfold gelu
  rw [mul_comm (u * u) u]

/-- The hidden activation at row `r`, hidden column `f`. -/
def hidden (X : Fin 8192 → Fin 4096 → EReal) (W1 : Fin 4096 → Fin 16384 → EReal) (B1 : Fin 16384 → EReal)
    (r : Fin 8192) (f : Fin 16384) : EReal :=
  gelu ((∑ k : Fin 4096, X r k * W1 k f) + B1 f)

/-- The perceptron's output at row `r`, column `d`. -/
def mlp (X : Fin 8192 → Fin 4096 → EReal) (W1 : Fin 4096 → Fin 16384 → EReal) (B1 : Fin 16384 → EReal)
    (W2 : Fin 16384 → Fin 4096 → EReal) (B2 : Fin 4096 → EReal) (r : Fin 8192) (d : Fin 4096) : EReal :=
  (∑ f : Fin 16384, hidden X W1 B1 r f * W2 f d) + B2 d

/-- Hidden column `f'` of block `j` (taken modulo the 128 blocks): column `128 j + f'`. -/
def col (j : ℕ) (f' : Fin 128) : Fin 16384 :=
  ⟨(j % 128) * 128 + f'.val, by have := f'.isLt; have := Nat.mod_lt j (by decide : 0 < 128); omega⟩

/-- Row `p` of row block `i` (taken modulo the 16 blocks): row `512 i + p`. -/
def row (i : ℕ) (p : Fin 512) : Fin 8192 :=
  ⟨(i % 16) * 512 + p.val, by have := p.isLt; have := Nat.mod_lt i (by decide : 0 < 16); omega⟩

/-- Block `j`'s share of the second product at (r, d). -/
def part (X : Fin 8192 → Fin 4096 → EReal) (W1 : Fin 4096 → Fin 16384 → EReal) (B1 : Fin 16384 → EReal)
    (W2 : Fin 16384 → Fin 4096 → EReal) (r : Fin 8192) (d : Fin 4096) (j : ℕ) : EReal :=
  ∑ f' : Fin 128, hidden X W1 B1 r (col j f') * W2 (col j f') d

/-- A sum over the 16384 hidden columns is the sum over the 128 blocks of the sums inside each. -/
theorem sum_col (g : Fin 16384 → EReal) :
    ∑ j ∈ Finset.range 128, ∑ f' : Fin 128, g (col j f') = ∑ f : Fin 16384, g f := by
  rw [Finset.sum_range, ← Fintype.sum_prod_type' (fun (j : Fin 128) (f' : Fin 128) => g (col j.val f')),
    ← (finProdFinEquiv (m := 128) (n := 128)).sum_comp g]
  refine Finset.sum_congr rfl fun x _ => congrArg g (Fin.ext ?_)
  show (x.1.val % 128) * 128 + x.2.val = x.2.val + 128 * x.1.val
  have := x.1.isLt
  omega

/-- So the blocks' shares add up to the whole second product. -/
theorem sum_part (X : Fin 8192 → Fin 4096 → EReal) (W1 : Fin 4096 → Fin 16384 → EReal) (B1 : Fin 16384 → EReal)
    (W2 : Fin 16384 → Fin 4096 → EReal) (r : Fin 8192) (d : Fin 4096) :
    ∑ j ∈ Finset.range 128, part X W1 B1 W2 r d j = ∑ f : Fin 16384, hidden X W1 B1 r f * W2 f d :=
  sum_col fun f => hidden X W1 B1 r f * W2 f d

/-! ## The whole arrays

The input is a [4, 2048, 4096] array whose first two axes are flattened, row-major, into the 8192 rows the
perceptron acts on: row `r` is (batch `r / 2048`, position `r % 2048`). -/

/-- The flattened row of (batch b, position s). -/
def flatRow (b : Fin 4) (s : Fin 2048) : Fin 8192 :=
  ⟨b.val * 2048 + s.val, by have := b.isLt; have := s.isLt; omega⟩

/-- The [4, 2048, 4096] input read by flattened row. -/
def flatRows (X : (⟨3, ![4, 2048, 4096]⟩ : Shape).Idx → EReal) : Fin 8192 → Fin 4096 → EReal := fun r k =>
  X (ix3 (⟨r.val / 2048, by have := r.isLt; omega⟩ : Fin 4) (⟨r.val % 2048, Nat.mod_lt _ (by decide)⟩ : Fin 2048) k)

theorem flatRows_flatRow (X : (⟨3, ![4, 2048, 4096]⟩ : Shape).Idx → EReal) (b : Fin 4) (s : Fin 2048) (k : Fin 4096) :
    flatRows X (flatRow b s) k = X (ix3 b s k) := by
  unfold flatRows flatRow
  refine congrArg X (funext fun a => Fin.ext ?_)
  have hb := b.isLt
  have hs := s.isLt
  match a with
  | ⟨0, _⟩ => show (b.val * 2048 + s.val) / 2048 = b.val; omega
  | ⟨1, _⟩ => show (b.val * 2048 + s.val) % 2048 = s.val; omega
  | ⟨2, _⟩ => rfl

/-- The perceptron's output as a [8192, 4096] array of the five argument arrays. -/
def rowsResult (X : (⟨3, ![4, 2048, 4096]⟩ : Shape).Idx → EReal) (W1 : (⟨2, ![4096, 16384]⟩ : Shape).Idx → EReal)
    (B1 : (⟨1, ![16384]⟩ : Shape).Idx → EReal) (W2 : (⟨2, ![16384, 4096]⟩ : Shape).Idx → EReal)
    (B2 : (⟨1, ![4096]⟩ : Shape).Idx → EReal) : (⟨2, ![8192, 4096]⟩ : Shape).Idx → EReal := fun j =>
  mlp (flatRows X) (fun k f => W1 (ix2 k f)) (fun f => B1 (ix1 f)) (fun f d => W2 (ix2 f d)) (fun d => B2 (ix1 d))
    (⟨(j 0).val, (j 0).isLt⟩ : Fin 8192) (⟨(j 1).val, (j 1).isLt⟩ : Fin 4096)

/-- The same output laid out [4, 2048, 4096]: entry (b, s, d) is row `2048 b + s`, column d. -/
def target (X : (⟨3, ![4, 2048, 4096]⟩ : Shape).Idx → EReal) (W1 : (⟨2, ![4096, 16384]⟩ : Shape).Idx → EReal)
    (B1 : (⟨1, ![16384]⟩ : Shape).Idx → EReal) (W2 : (⟨2, ![16384, 4096]⟩ : Shape).Idx → EReal)
    (B2 : (⟨1, ![4096]⟩ : Shape).Idx → EReal) : (⟨3, ![4, 2048, 4096]⟩ : Shape).Idx → EReal := fun i =>
  rowsResult X W1 B1 W2 B2
    (ix2 (flatRow (⟨(i 0).val, (i 0).isLt⟩ : Fin 4) (⟨(i 1).val, (i 1).isLt⟩ : Fin 2048)) (⟨(i 2).val, (i 2).isLt⟩ : Fin 4096))

/-- Entry (b, s, d) of the output in the input's own coordinates. -/
theorem target_apply (X : (⟨3, ![4, 2048, 4096]⟩ : Shape).Idx → EReal) (W1 : (⟨2, ![4096, 16384]⟩ : Shape).Idx → EReal)
    (B1 : (⟨1, ![16384]⟩ : Shape).Idx → EReal) (W2 : (⟨2, ![16384, 4096]⟩ : Shape).Idx → EReal)
    (B2 : (⟨1, ![4096]⟩ : Shape).Idx → EReal) (b : Fin 4) (s : Fin 2048) (d : Fin 4096) :
    target X W1 B1 W2 B2 (ix3 b s d)
      = (∑ f : Fin 16384, gelu ((∑ k : Fin 4096, X (ix3 b s k) * W1 (ix2 k f)) + B1 (ix1 f)) * W2 (ix2 f d)) + B2 (ix1 d) := by
  show mlp (flatRows X) (fun k f => W1 (ix2 k f)) (fun f => B1 (ix1 f)) (fun f d => W2 (ix2 f d)) (fun d => B2 (ix1 d))
    (flatRow b s) d = _
  unfold mlp hidden
  simp only [flatRows_flatRow]

end Cert.Mlp

end
-- ==== Proof.Blocks.lean ====
/-
  What the kernel's windows show of the argument arrays.

  Before the call the host flattens the input to [8192, 4096] and narrows it and both weights to bf16 (the identity
  on extended reals), and views the two biases as one-row matrices. The 2048 grid points are (i, j) = (t / 128,
  t % 128): the input window shows rows 512 i … 512 i + 511; the first weight's and first bias's windows show hidden
  columns 128 j … 128 j + 127; the second weight's window shows those same 128 hidden rows; the second bias's window
  shows the whole row.
-/
import proofs.«173085_j76270029243058_1_alg».proof.Proof.Gen.KernelIdeal.Frame
import proofs.«173085_j76270029243058_1_alg».proof.Proof.Spec
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.Mlp

variable (m : (ℓ : Loc nD τ sig) → Buf (Elt Ideal) ℓ)

/-! ## The five argument arrays of core `c`, and the readings of them the perceptron is stated over -/

abbrev argX (c : Dev nD) : S4x2048x4096.Idx → EReal := m ((c : Thread nD τ).loc main_arg0)
abbrev argW1 (c : Dev nD) : S4096x16384.Idx → EReal := m ((c : Thread nD τ).loc main_arg1)
abbrev argB1 (c : Dev nD) : S16384.Idx → EReal := m ((c : Thread nD τ).loc main_arg2)
abbrev argW2 (c : Dev nD) : S16384x4096.Idx → EReal := m ((c : Thread nD τ).loc main_arg3)
abbrev argB2 (c : Dev nD) : S4096.Idx → EReal := m ((c : Thread nD τ).loc main_arg4)

abbrev rowsX (c : Dev nD) : Fin 8192 → Fin 4096 → EReal := flatRows (argX m c)
abbrev matW1 (c : Dev nD) : Fin 4096 → Fin 16384 → EReal := fun k f => argW1 m c (ix2 k f)
abbrev vecB1 (c : Dev nD) : Fin 16384 → EReal := fun f => argB1 m c (ix1 f)
abbrev matW2 (c : Dev nD) : Fin 16384 → Fin 4096 → EReal := fun f d => argW2 m c (ix2 f d)
abbrev vecB2 (c : Dev nD) : Fin 4096 → EReal := fun d => argB2 m c (ix1 d)

/-! ## The arrays the windows stage, as the host operations before the call leave them -/

theorem staged_x (c : Dev nD) : V m c main_v1
    = (truncf .bf16 (shapeCast S8192x4096 (argX m c) shapeCasts_S4x2048x4096_S8192x4096) bitsLt_bf16_f32 : FVec Ideal S8192x4096 .bf16) := by
  show StableHlo.after hostOps0 (fun b => m (c, b)) (Proc.devRef .tc main_v1) = _
  after_results
  rfl

theorem staged_w1 (c : Dev nD) : V m c main_v2
    = (truncf .bf16 (argW1 m c) bitsLt_bf16_f32 : FVec Ideal S4096x16384 .bf16) := by
  show StableHlo.after hostOps0 (fun b => m (c, b)) (Proc.devRef .tc main_v2) = _
  after_results

theorem staged_w2 (c : Dev nD) : V m c main_v3
    = (truncf .bf16 (argW2 m c) bitsLt_bf16_f32 : FVec Ideal S16384x4096 .bf16) := by
  show StableHlo.after hostOps0 (fun b => m (c, b)) (Proc.devRef .tc main_v3) = _
  after_results

theorem staged_b1 (c : Dev nD) : V m c main_v4
    = (shapeCast S1x16384 (argB1 m c) shapeCasts_S16384_S1x16384 : FVec Ideal S1x16384 .f32) := by
  show StableHlo.after hostOps0 (fun b => m (c, b)) (Proc.devRef .tc main_v4) = _
  after_results
  rfl

theorem staged_b2 (c : Dev nD) : V m c main_v5
    = (shapeCast S1x4096 (argB2 m c) shapeCasts_S4096_S1x4096 : FVec Ideal S1x4096 .f32) := by
  show StableHlo.after hostOps0 (fun b => m (c, b)) (Proc.devRef .tc main_v5) = _
  after_results
  rfl

/-- The staged input at (r, k) is the input at flattened row r. -/
theorem staged_x_apply (c : Dev nD) (r : Fin 8192) (k : Fin 4096) : V m c main_v1 (ix2 r k) = rowsX m c r k := by
  rw [staged_x]
  show shapeCast S8192x4096 (argX m c) shapeCasts_S4x2048x4096_S8192x4096 (ix2 r k) = _
  refine shapeCast_apply _ _ (ix2 r k) (ix3 (⟨r.val / 2048, by have := r.isLt; omega⟩ : Fin 4) (⟨r.val % 2048, Nat.mod_lt _ (by decide)⟩ : Fin 2048) k) ?_
  rw [Shape.rowMajor_val_three, Shape.rowMajor_val_two]
  show (r.val / 2048 * 2048 + r.val % 2048) * 4096 + k.val = r.val * 4096 + k.val
  omega

theorem staged_w1_apply (c : Dev nD) (k : Fin 4096) (f : Fin 16384) : V m c main_v2 (ix2 k f) = matW1 m c k f := by
  rw [staged_w1]; rfl

theorem staged_w2_apply (c : Dev nD) (f : Fin 16384) (d : Fin 4096) : V m c main_v3 (ix2 f d) = matW2 m c f d := by
  rw [staged_w2]; rfl

theorem staged_b1_apply (c : Dev nD) (f : Fin 16384) : V m c main_v4 (ix2 (0 : Fin 1) f) = vecB1 m c f := by
  rw [staged_b1]
  refine shapeCast_apply _ _ (ix2 (0 : Fin 1) f) (ix1 f) ?_
  rw [Shape.rowMajor_val_one, Shape.rowMajor_val_two]
  show f.val = 0 * 16384 + f.val
  omega

theorem staged_b2_apply (c : Dev nD) (d : Fin 4096) : V m c main_v5 (ix2 (0 : Fin 1) d) = vecB2 m c d := by
  rw [staged_b2]
  refine shapeCast_apply _ _ (ix2 (0 : Fin 1) d) (ix1 d) ?_
  rw [Shape.rowMajor_val_one, Shape.rowMajor_val_two]
  show d.val = 0 * 4096 + d.val
  omega

/-! ## The windows' block indices over the grid -/

theorem block_indices : ∀ t : Fin cfg0.N,
    win0_0.index t (0 : Fin 2) = t.val / 128 ∧ win0_0.index t (1 : Fin 2) = 0
    ∧ win0_1.index t (0 : Fin 2) = 0 ∧ win0_1.index t (1 : Fin 2) = t.val % 128
    ∧ win0_2.index t (0 : Fin 2) = 0 ∧ win0_2.index t (1 : Fin 2) = t.val % 128
    ∧ win0_3.index t (0 : Fin 2) = t.val % 128 ∧ win0_3.index t (1 : Fin 2) = 0
    ∧ win0_4.index t (0 : Fin 2) = 0 ∧ win0_4.index t (1 : Fin 2) = 0
    ∧ win0_5.index t (0 : Fin 2) = t.val / 128 ∧ win0_5.index t (1 : Fin 2) = 0 :=
  (by decide +kernel : ∀ t : Fin grid0.N, _)

/-! ## The input blocks at a point, named at their literal types, and read at an index -/

abbrev xblk (c : Dev nD) (t : Fin cfg0.N) : Vec Ideal S512x4096 .bf16 := iblk m c 0 t
abbrev w1blk (c : Dev nD) (t : Fin cfg0.N) : Vec Ideal S4096x128 .bf16 := iblk m c 1 t
abbrev b1blk (c : Dev nD) (t : Fin cfg0.N) : Vec Ideal S1x128 .f32 := iblk m c 2 t
abbrev w2blk (c : Dev nD) (t : Fin cfg0.N) : Vec Ideal S128x4096 .bf16 := iblk m c 3 t
abbrev b2blk (c : Dev nD) (t : Fin cfg0.N) : Vec Ideal S1x4096 .f32 := iblk m c 4 t

theorem xblk_apply (c : Dev nD) (t : Fin cfg0.N) (p : Fin 512) (k : Fin 4096) :
    xblk m c t (ix2 p k) = rowsX m c (row (t.val / 128) p) k := by
  obtain ⟨e0, e1, -⟩ := block_indices t
  have hN : t.val < 2048 := lt_of_lt_of_eq t.isLt (show cfg0.N = 2048 from N_0)
  rw [← staged_x_apply]
  show V m c main_v1 (((cfg0.win 0).blk t).view.emb (ix2 p k)) = _
  refine congrArg (V m c main_v1) (funext fun a => Fin.ext ?_)
  match a with
  | ⟨0, _⟩ => show win0_0.index t (0 : Fin 2) * 512 + 1 * p.val = (t.val / 128 % 16) * 512 + p.val; rw [e0]; omega
  | ⟨1, _⟩ => show win0_0.index t (1 : Fin 2) * 4096 + 1 * k.val = k.val; rw [e1]; omega

theorem w1blk_apply (c : Dev nD) (t : Fin cfg0.N) (k : Fin 4096) (f' : Fin 128) :
    w1blk m c t (ix2 k f') = matW1 m c k (col (t.val % 128) f') := by
  obtain ⟨-, -, e0, e1, -⟩ := block_indices t
  rw [← staged_w1_apply]
  show V m c main_v2 (((cfg0.win 1).blk t).view.emb (ix2 k f')) = _
  refine congrArg (V m c main_v2) (funext fun a => Fin.ext ?_)
  match a with
  | ⟨0, _⟩ => show win0_1.index t (0 : Fin 2) * 4096 + 1 * k.val = k.val; rw [e0]; omega
  | ⟨1, _⟩ => show win0_1.index t (1 : Fin 2) * 128 + 1 * f'.val = (t.val % 128 % 128) * 128 + f'.val; rw [e1]; omega

theorem b1blk_apply (c : Dev nD) (t : Fin cfg0.N) (f' : Fin 128) :
    b1blk m c t (ix2 (0 : Fin 1) f') = vecB1 m c (col (t.val % 128) f') := by
  obtain ⟨-, -, -, -, e0, e1, -⟩ := block_indices t
  rw [← staged_b1_apply]
  show V m c main_v4 (((cfg0.win 2).blk t).view.emb (ix2 (0 : Fin 1) f')) = _
  refine congrArg (V m c main_v4) (funext fun a => Fin.ext ?_)
  match a with
  | ⟨0, _⟩ => show win0_2.index t (0 : Fin 2) * 1 + 1 * 0 = 0; rw [e0]
  | ⟨1, _⟩ => show win0_2.index t (1 : Fin 2) * 128 + 1 * f'.val = (t.val % 128 % 128) * 128 + f'.val; rw [e1]; omega

theorem w2blk_apply (c : Dev nD) (t : Fin cfg0.N) (f' : Fin 128) (q : Fin 4096) :
    w2blk m c t (ix2 f' q) = matW2 m c (col (t.val % 128) f') q := by
  obtain ⟨-, -, -, -, -, -, e0, e1, -⟩ := block_indices t
  rw [← staged_w2_apply]
  show V m c main_v3 (((cfg0.win 3).blk t).view.emb (ix2 f' q)) = _
  refine congrArg (V m c main_v3) (funext fun a => Fin.ext ?_)
  match a with
  | ⟨0, _⟩ => show win0_3.index t (0 : Fin 2) * 128 + 1 * f'.val = (t.val % 128 % 128) * 128 + f'.val; rw [e0]; omega
  | ⟨1, _⟩ => show win0_3.index t (1 : Fin 2) * 4096 + 1 * q.val = q.val; rw [e1]; omega

theorem b2blk_apply (c : Dev nD) (t : Fin cfg0.N) (q : Fin 4096) :
    b2blk m c t (ix2 (0 : Fin 1) q) = vecB2 m c q := by
  obtain ⟨-, -, -, -, -, -, -, -, e0, e1, -⟩ := block_indices t
  rw [← staged_b2_apply]
  show V m c main_v5 (((cfg0.win 4).blk t).view.emb (ix2 (0 : Fin 1) q)) = _
  refine congrArg (V m c main_v5) (funext fun a => Fin.ext ?_)
  match a with
  | ⟨0, _⟩ => show win0_4.index t (0 : Fin 2) * 1 + 1 * 0 = 0; rw [e0]
  | ⟨1, _⟩ => show win0_4.index t (1 : Fin 2) * 4096 + 1 * q.val = q.val; rw [e1]; omega

end Cert.KernelIdeal.Blocks

end
-- ==== Proof.Payload.lean ====
/-
  The kernel body's three stored values, read at an index over the extended reals.

  The body keeps a [512, 4096] accumulator. At every grid point it adds to it the product of the activated
  [512, 128] block `gelu (x · w1 + b1)` with a [128, 4096] block of the second weight; at a row block's first
  point the accumulator is zero, and at its last point the output block is the accumulator plus the output bias.
  Read at (p, q) the update is
      acc p q + ∑ f' < 128, gelu ((∑ k < 4096, x p k · w1 k f') + b1 0 f') · w2 f' q :
  a matrix-unit product into a zero accumulator is the plain sum over the contraction index, a change of float
  format is the identity on extended reals, and every other operation acts elementwise.
-/
import proofs.«173085_j76270029243058_1_alg».proof.Proof.Gen.KernelIdeal.Skeleton
import proofs.«173085_j76270029243058_1_alg».proof.Proof.Spec
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Cert.Mlp

variable {F : FTy → Type} [FloatOps F]

/-! ## The body's arithmetic in three named stages (any float instance) -/

/-- The first product plus the first bias, a [512, 128] block. -/
def preact (x0 : Vec F S512x4096 .bf16) (x1 : Vec F S4096x128 .bf16) (x2 : Vec F S1x128 .f32) : FVec F S512x128 .f32 :=
  addf (matmul dot_S512x4096_S4096x128_S512x128_1_0_0_1_n_n none x0 x1 (constant S512x128 .f32 0x00000000#32))
    (broadcastTo S512x128 x2 broadcasts_S1x128_S512x128)

/-- The tanh-approximated GELU applied elementwise to a [512, 128] block, as the body spells it. -/
def activate (u : FVec F S512x128 .f32) : FVec F S512x128 .f32 :=
  mulf u (mulf (broadcast S512x128 (Scalar.ofBits .f32 0x3F000000#32))
    (addf (broadcast S512x128 (Scalar.ofBits .f32 0x3F800000#32))
      (tanh (mulf (broadcast S512x128 (Scalar.ofBits .f32 0x3F4C422A#32))
        (addf u (mulf (broadcast S512x128 (Scalar.ofBits .f32 0x3D372713#32)) (mulf u (mulf u u))))))))

/-- The accumulator's update is: accumulator plus (activated block, narrowed to bf16) times the second weight block. -/
theorem pay3_eq (x0 : Vec F S512x4096 .bf16) (x1 : Vec F S4096x128 .bf16) (x2 : Vec F S1x128 .f32)
    (x3 : Vec F S128x4096 .bf16) (xs : Vec F S512x4096 .f32) :
    k0_pay3 x0 x1 x2 x3 xs
      = addf xs (matmul dot_S512x128_S128x4096_S512x4096_1_0_0_1_n_n none (truncf .bf16 (activate (preact x0 x1 x2)) bitsLt_bf16_f32) x3
          (constant S512x4096 .f32 0x00000000#32)) := by
  unfold k0_pay3 activate preact
  simp only [shapeCast_self]

/-- The output block is the accumulator plus the output bias row, repeated down the rows. -/
theorem pay1_eq (acc : Vec F S512x4096 .f32) (x4 : Vec F S1x4096 .f32) :
    k0_pay1 acc x4 = addf acc (broadcastTo S512x4096 x4 broadcasts_S1x4096_S512x4096) := by
  unfold k0_pay1
  simp only [shapeCast_self]

/-- The reset value is the block of zeros. -/
theorem pay2_eq : k0_pay2 (F := F) = broadcast S512x4096 (Scalar.ofBits .f32 0x00000000#32) := by
  unfold k0_pay2
  simp only [shapeCast_self]

/-! ## The two matrix-unit products at an index, over the extended reals -/

theorem lhs_first_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem lhs_first_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
theorem rhs_first_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
theorem rhs_first_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The first product into zeros, at (p, f'): the sum over the 4096 input features. -/
theorem first_apply (a : FVec Ideal S512x4096 .bf16) (b : FVec Ideal S4096x128 .bf16) (p : Fin 512) (f' : Fin 128) :
    matmul dot_S512x4096_S4096x128_S512x128_1_0_0_1_n_n none a b (constant S512x128 .f32 0x00000000#32) (ix2 p f')
      = ∑ k : Fin 4096, a (ix2 p k) * b (ix2 k f') := by
  simp only [matmul]
  rw [Ideal.matmul_constant_zero_apply, ← Equiv.sum_comp (ValueIdx.contrEquiv1 dot_S512x4096_S4096x128_S512x128_1_0_0_1_n_n 4096 rfl rfl).symm]
  refine Finset.sum_congr rfl fun k _ => ?_
  have hk := ValueIdx.contrEquiv1_symm_val dot_S512x4096_S4096x128_S512x128_1_0_0_1_n_n 4096 rfl rfl k
  have el : dot_S512x4096_S4096x128_S512x128_1_0_0_1_n_n.lhsIdx (ix2 p f') ((ValueIdx.contrEquiv1 dot_S512x4096_S4096x128_S512x128_1_0_0_1_n_n 4096 rfl rfl).symm k) = ix2 p k := funext fun a => Fin.ext (by
    match a with
    | ⟨0, _⟩ => exact lhs_first_0 _ _
    | ⟨1, _⟩ => exact (lhs_first_1 _ _).trans hk)
  have er : dot_S512x4096_S4096x128_S512x128_1_0_0_1_n_n.rhsIdx (ix2 p f') ((ValueIdx.contrEquiv1 dot_S512x4096_S4096x128_S512x128_1_0_0_1_n_n 4096 rfl rfl).symm k) = ix2 k f' := funext fun a => Fin.ext (by
    match a with
    | ⟨0, _⟩ => exact (rhs_first_0 _ _).trans hk
    | ⟨1, _⟩ => exact rhs_first_1 _ _)
  rw [el, er]

theorem lhs_second_0 (i : S512x4096.Idx) (q : dot_S512x128_S128x4096_S512x4096_1_0_0_1_n_n.contr.Idx) :
    (dot_S512x128_S128x4096_S512x4096_1_0_0_1_n_n.lhsIdx i q 0).val = (i 0).val := by
  unfold DotDims.lhsIdx
  rw [dif_neg (show ¬(0 : Fin S512x128.rank) ∈ dot_S512x128_S128x4096_S512x4096_1_0_0_1_n_n.lhsBatch by decide), dif_pos (show (0 : Fin S512x128.rank) ∈ dot_S512x128_S128x4096_S512x4096_1_0_0_1_n_n.lhsNonContracting by decide)]
  rfl
theorem lhs_second_1 (i : S512x4096.Idx) (q : dot_S512x128_S128x4096_S512x4096_1_0_0_1_n_n.contr.Idx) :
    (dot_S512x128_S128x4096_S512x4096_1_0_0_1_n_n.lhsIdx i q 1).val = (q ⟨0, by decide⟩).val :=
  dot_S512x128_S128x4096_S512x4096_1_0_0_1_n_n.lhsIdx_val_of_single rfl i q
theorem rhs_second_0 (i : S512x4096.Idx) (q : dot_S512x128_S128x4096_S512x4096_1_0_0_1_n_n.contr.Idx) :
    (dot_S512x128_S128x4096_S512x4096_1_0_0_1_n_n.rhsIdx i q 0).val = (q ⟨0, by decide⟩).val :=
  dot_S512x128_S128x4096_S512x4096_1_0_0_1_n_n.rhsIdx_val_of_single rfl i q
theorem rhs_second_1 (i : S512x4096.Idx) (q : dot_S512x128_S128x4096_S512x4096_1_0_0_1_n_n.contr.Idx) :
    (dot_S512x128_S128x4096_S512x4096_1_0_0_1_n_n.rhsIdx i q 1).val = (i 1).val := by
  unfold DotDims.rhsIdx
  rw [dif_neg (show ¬(1 : Fin S128x4096.rank) ∈ dot_S512x128_S128x4096_S512x4096_1_0_0_1_n_n.rhsBatch by decide), dif_pos (show (1 : Fin S128x4096.rank) ∈ dot_S512x128_S128x4096_S512x4096_1_0_0_1_n_n.rhsNonContracting by decide)]
  rfl

/-- The second product into zeros, at (p, q): the sum over the block's 128 hidden columns. -/
theorem second_apply (a : FVec Ideal S512x128 .bf16) (b : FVec Ideal S128x4096 .bf16) (p : Fin 512) (q : Fin 4096) :
    matmul dot_S512x128_S128x4096_S512x4096_1_0_0_1_n_n none a b (constant S512x4096 .f32 0x00000000#32) (ix2 p q)
      = ∑ f' : Fin 128, a (ix2 p f') * b (ix2 f' q) := by
  simp only [matmul]
  rw [Ideal.matmul_constant_zero_apply, ← Equiv.sum_comp (ValueIdx.contrEquiv1 dot_S512x128_S128x4096_S512x4096_1_0_0_1_n_n 128 rfl rfl).symm]
  refine Finset.sum_congr rfl fun k _ => ?_
  have hk := ValueIdx.contrEquiv1_symm_val dot_S512x128_S128x4096_S512x4096_1_0_0_1_n_n 128 rfl rfl k
  have el : dot_S512x128_S128x4096_S512x4096_1_0_0_1_n_n.lhsIdx (ix2 p q) ((ValueIdx.contrEquiv1 dot_S512x128_S128x4096_S512x4096_1_0_0_1_n_n 128 rfl rfl).symm k) = ix2 p k := funext fun a => Fin.ext (by
    match a with
    | ⟨0, _⟩ => exact lhs_second_0 _ _
    | ⟨1, _⟩ => exact (lhs_second_1 _ _).trans hk)
  have er : dot_S512x128_S128x4096_S512x4096_1_0_0_1_n_n.rhsIdx (ix2 p q) ((ValueIdx.contrEquiv1 dot_S512x128_S128x4096_S512x4096_1_0_0_1_n_n 128 rfl rfl).symm k) = ix2 k q := funext fun a => Fin.ext (by
    match a with
    | ⟨0, _⟩ => exact (rhs_second_0 _ _).trans hk
    | ⟨1, _⟩ => exact rhs_second_1 _ _)
  rw [el, er]

/-! ## The three stored values at an index -/

/-- The first product plus bias at (p, f'). -/
theorem preact_apply (x0 : Vec Ideal S512x4096 .bf16) (x1 : Vec Ideal S4096x128 .bf16) (x2 : Vec Ideal S1x128 .f32)
    (p : Fin 512) (f' : Fin 128) :
    preact (F := Ideal) x0 x1 x2 (ix2 p f') = (∑ k : Fin 4096, x0 (ix2 p k) * x1 (ix2 k f')) + x2 (ix2 (0 : Fin 1) f') := by
  show matmul (F := Ideal) dot_S512x4096_S4096x128_S512x128_1_0_0_1_n_n none x0 x1 (constant S512x128 .f32 0x00000000#32) (ix2 p f')
    + broadcastTo S512x128 x2 broadcasts_S1x128_S512x128 (ix2 p f') = _
  rw [first_apply, broadcastTo_apply x2 broadcasts_S1x128_S512x128 (ix2 p f') (ix2 (0 : Fin 1) f') (fun a => match a with
    | ⟨0, _⟩ => by show 0 = if (1 : Nat) = 1 then 0 else _; rw [if_pos rfl]
    | ⟨1, _⟩ => by show f'.val = if (128 : Nat) = 1 then 0 else f'.val; rw [if_neg (by decide)])]

/-- The activation is `gelu` at every element. -/
theorem activate_apply (u : FVec Ideal S512x128 .f32) (i : S512x128.Idx) : activate (F := Ideal) u i = gelu (u i) := rfl

/-- The accumulator's update at (p, q). -/
theorem pay3_apply (x0 : Vec Ideal S512x4096 .bf16) (x1 : Vec Ideal S4096x128 .bf16) (x2 : Vec Ideal S1x128 .f32)
    (x3 : Vec Ideal S128x4096 .bf16) (xs : Vec Ideal S512x4096 .f32) (p : Fin 512) (q : Fin 4096) :
    k0_pay3 (F := Ideal) x0 x1 x2 x3 xs (ix2 p q)
      = xs (ix2 p q) + ∑ f' : Fin 128,
          gelu ((∑ k : Fin 4096, x0 (ix2 p k) * x1 (ix2 k f')) + x2 (ix2 (0 : Fin 1) f')) * x3 (ix2 f' q) := by
  rw [pay3_eq]
  show xs (ix2 p q) + matmul (F := Ideal) dot_S512x128_S128x4096_S512x4096_1_0_0_1_n_n none (truncf .bf16 (activate (preact x0 x1 x2)) bitsLt_bf16_f32) x3
      (constant S512x4096 .f32 0x00000000#32) (ix2 p q) = _
  rw [second_apply]
  refine congrArg (xs (ix2 p q) + ·) (Finset.sum_congr rfl fun f' _ => ?_)
  show activate (preact x0 x1 x2) (ix2 p f') * x3 (ix2 f' q) = _
  rw [activate_apply, preact_apply]

/-- The output block at (p, q): the accumulator there plus the bias of column q. -/
theorem pay1_apply (acc : Vec Ideal S512x4096 .f32) (x4 : Vec Ideal S1x4096 .f32) (p : Fin 512) (q : Fin 4096) :
    k0_pay1 (F := Ideal) acc x4 (ix2 p q) = acc (ix2 p q) + x4 (ix2 (0 : Fin 1) q) := by
  rw [pay1_eq]
  show acc (ix2 p q) + broadcastTo S512x4096 x4 broadcasts_S1x4096_S512x4096 (ix2 p q) = _
  rw [broadcastTo_apply x4 broadcasts_S1x4096_S512x4096 (ix2 p q) (ix2 (0 : Fin 1) q) (fun a => match a with
    | ⟨0, _⟩ => by show 0 = if (1 : Nat) = 1 then 0 else _; rw [if_pos rfl]
    | ⟨1, _⟩ => by show q.val = if (4096 : Nat) = 1 then 0 else q.val; rw [if_neg (by decide)])]

/-- The reset value is zero everywhere. -/
theorem pay2_apply (i : S512x4096.Idx) : k0_pay2 (F := Ideal) i = 0 := by
  rw [pay2_eq]
  exact Ideal.ofBits_zero_f32

end Cert.KernelIdeal.Pay

end
-- ==== Proof.Pieces.lean ====
/-
  What each of the body's three control cases leaves behind, as values of the blocks it was handed.

  A row block's first grid point zeroes the accumulator and then updates it; a middle point updates it; the last
  point updates it and stores accumulator plus bias into the output block. Every store of the body covers its
  whole buffer, so what a buffer holds afterwards is the last store's value, and a load of the accumulator after
  the reset reads the zeros just stored.
-/
import proofs.«173085_j76270029243058_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First point of a row block: the accumulator ends at the update of the zero block. -/
theorem acc_first (c : Dev nD) (i : grid0.Coords) (arg2 : Memref sig .tc .vmem S512x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .f32) (harg8 : arg8.IsWhole) (hc0 : cond0_0 i) (hc1 : ¬cond0_1 i)
    (x0 : Vec F S512x4096 .bf16) (x1 : Vec F S4096x128 .bf16) (x2 : Vec F S1x128 .f32) (x3 : Vec F S128x4096 .bf16) (x4 : Vec F S1x4096 .f32) :
    sout0_A_0 c i arg2 harg2 arg3 harg3 arg4 harg4 arg5 harg5 arg6 harg6 arg7 harg7 arg8 harg8 hc0 hc1 x0 x1 x2 x3 x4 = k0_pay3 x0 x1 x2 x3 (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x4096) hz, View.readCov_unit_zero (S := S512x4096) _ hz]
  simp only [View.readAt_eq_ld, harg2.read_unread, harg3.read_unread, harg4.read_unread, harg5.read_unread, harg6.read_unread, harg7.read_unread, harg8.read_unread, View.ld_unit_zero (S := S512x4096) hz, View.ld_unit_zero (S := S4096x128) hz, View.ld_unit_zero (S := S1x128) hz, View.ld_unit_zero (S := S128x4096) hz, View.ld_unit_zero (S := S1x4096) hz]

/-- A middle point: the accumulator ends at the update of what the point before left. -/
theorem acc_middle (c : Dev nD) (i : grid0.Coords) (arg2 : Memref sig .tc .vmem S512x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .f32) (harg8 : arg8.IsWhole) (hc0 : ¬cond0_0 i) (hc1 : ¬cond0_1 i)
    (x0 : Vec F S512x4096 .bf16) (x1 : Vec F S4096x128 .bf16) (x2 : Vec F S1x128 .f32) (x3 : Vec F S128x4096 .bf16) (x4 : Vec F S1x4096 .f32) (xs0 : Vec F S512x4096 .f32) :
    sout0_B_0 c i arg2 harg2 arg3 harg3 arg4 harg4 arg5 harg5 arg6 harg6 arg7 harg7 arg8 harg8 hc0 hc1 x0 x1 x2 x3 x4 xs0 = k0_pay3 x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x4096) hz, View.ld_unit_zero (S := S4096x128) hz, View.ld_unit_zero (S := S1x128) hz, View.ld_unit_zero (S := S128x4096) hz, View.ld_unit_zero (S := S1x4096) hz]

/-- The last point of a row block: the accumulator is updated the same way, -/
theorem acc_last (c : Dev nD) (i : grid0.Coords) (arg2 : Memref sig .tc .vmem S512x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .f32) (harg8 : arg8.IsWhole) (hc0 : ¬cond0_0 i) (hc1 : cond0_1 i)
    (x0 : Vec F S512x4096 .bf16) (x1 : Vec F S4096x128 .bf16) (x2 : Vec F S1x128 .f32) (x3 : Vec F S128x4096 .bf16) (x4 : Vec F S1x4096 .f32) (xs0 : Vec F S512x4096 .f32) :
    sout0_C_0 c i arg2 harg2 arg3 harg3 arg4 harg4 arg5 harg5 arg6 harg6 arg7 harg7 arg8 harg8 hc0 hc1 x0 x1 x2 x3 x4 xs0 = k0_pay3 x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x4096) hz, View.ld_unit_zero (S := S4096x128) hz, View.ld_unit_zero (S := S1x128) hz, View.ld_unit_zero (S := S128x4096) hz, View.ld_unit_zero (S := S1x4096) hz]

/-- and the output block is the updated accumulator plus the bias. -/
theorem out_last (c : Dev nD) (i : grid0.Coords) (arg2 : Memref sig .tc .vmem S512x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .f32) (harg8 : arg8.IsWhole) (hc0 : ¬cond0_0 i) (hc1 : cond0_1 i)
    (x0 : Vec F S512x4096 .bf16) (x1 : Vec F S4096x128 .bf16) (x2 : Vec F S1x128 .f32) (x3 : Vec F S128x4096 .bf16) (x4 : Vec F S1x4096 .f32) (xs0 : Vec F S512x4096 .f32) :
    out0_C_5 c i arg2 harg2 arg3 harg3 arg4 harg4 arg5 harg5 arg6 harg6 arg7 harg7 arg8 harg8 hc0 hc1 x0 x1 x2 x3 x4 xs0 = k0_pay1 (k0_pay3 x0 x1 x2 x3 xs0) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x4096) hz, View.ld_unit_zero (S := S4096x128) hz, View.ld_unit_zero (S := S1x128) hz, View.ld_unit_zero (S := S128x4096) hz, View.ld_unit_zero (S := S1x4096) hz, View.readCov_unit_zero (S := S512x4096) _ hz]

end Cert.KernelIdeal.Pieces

end
-- ==== Proof.Accumulate.lean ====
/-
  The accumulator across the grid, and the output block at a row block's last point.

  Within row block i the accumulator after the point (i, j) holds, at (p, q), the sum over the hidden blocks 0 … j of
  each block's share of the second product at row 512 i + p, column q: the first point stores zero plus block 0's
  share, every later point adds its own block's share to what the point before left. At j = 127 all 128 shares are
  in, which is the whole sum over the 16384 hidden columns, and the output block is that plus the output bias.
-/
import proofs.«173085_j76270029243058_1_alg».proof.Proof.Blocks
import proofs.«173085_j76270029243058_1_alg».proof.Proof.Payload
import proofs.«173085_j76270029243058_1_alg».proof.Proof.Pieces

noncomputable section

namespace Cert.KernelIdeal.Acc

open Cert.KernelIdeal Cert.KernelIdeal.Gen Idealize.ShloMosaic Idealize.ShloMosaic.TcCoe Idealize.SL.Sem
open Idealize.ShloMosaic.ValueIdx Cert.Mlp Cert.KernelIdeal.Blocks Cert.KernelIdeal.Pay Cert.KernelIdeal.Pieces

variable (m : (ℓ : Loc nD τ sig) → Buf (Elt Ideal) ℓ)

/-- One update at point t, in the arguments: the accumulator's entry plus the share of hidden block t % 128. -/
theorem update_apply (c : Dev nD) (t : Fin cfg0.N) (xs : Vec Ideal S512x4096 .f32) (p : Fin 512) (q : Fin 4096) :
    k0_pay3 (F := Ideal) (xblk m c t) (w1blk m c t) (b1blk m c t) (w2blk m c t) xs (ix2 p q)
      = xs (ix2 p q) + part (rowsX m c) (matW1 m c) (vecB1 m c) (matW2 m c) (row (t.val / 128) p) q (t.val % 128) := by
  refine (pay3_apply (xblk m c t) (w1blk m c t) (b1blk m c t) (w2blk m c t) xs p q).trans ?_
  unfold part Mlp.hidden
  simp only [w2blk_apply, b1blk_apply, xblk_apply, w1blk_apply]

/-- What the point before t left in the accumulator. -/
abbrev prevAcc (c : Dev nD) (t : Fin cfg0.N) : Vec Ideal S512x4096 .f32 :=
  (outsAt0 m c (t.val - 1) (Nat.lt_of_le_of_lt (Nat.sub_le _ _) t.isLt)).2

/-- At a row block's first point the accumulator is left at hidden block 0's share. -/
theorem acc_at_first (c : Dev nD) (t : Fin cfg0.N) (h0 : t.val % 128 = 0) (p : Fin 512) (q : Fin 4096) :
    (outsAt0 m c t.val t.isLt).2 (ix2 p q) = part (rowsX m c) (matW1 m c) (vecB1 m c) (matW2 m c) (row (t.val / 128) p) q 0 := by
  have h1 : ¬t.val % 128 = 127 := by omega
  rw [outsAt0_A m c t h0 h1]
  dsimp only
  refine (congrFun (acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (xblk m c t) (w1blk m c t) (b1blk m c t) (w2blk m c t) (b2blk m c t)) (ix2 p q)).trans ?_
  refine (update_apply m c t (k0_pay2 (F := Ideal)) p q).trans ?_
  rw [pay2_apply, zero_add, h0]

/-- At any later point it is what the point before left plus this point's hidden block's share. -/
theorem acc_at_later (c : Dev nD) (t : Fin cfg0.N) (h0 : ¬t.val % 128 = 0) (p : Fin 512) (q : Fin 4096) :
    (outsAt0 m c t.val t.isLt).2 (ix2 p q)
      = prevAcc m c t (ix2 p q) + part (rowsX m c) (matW1 m c) (vecB1 m c) (matW2 m c) (row (t.val / 128) p) q (t.val % 128) := by
  by_cases h1 : t.val % 128 = 127
  · rw [outsAt0_C m c t h0 h1]
    dsimp only
    refine (congrFun (acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk m c t) (w1blk m c t) (b1blk m c t) (w2blk m c t) (b2blk m c t) (prevAcc m c t)) (ix2 p q)).trans ?_
    exact update_apply m c t (prevAcc m c t) p q
  · rw [outsAt0_B m c t h0 h1]
    dsimp only
    refine (congrFun (acc_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (xblk m c t) (w1blk m c t) (b1blk m c t) (w2blk m c t) (b2blk m c t) (prevAcc m c t)) (ix2 p q)).trans ?_
    exact update_apply m c t (prevAcc m c t) p q

/-- The accumulator after point n: the shares of hidden blocks 0 … n % 128, at row block n / 128. -/
theorem acc_eq (c : Dev nD) : ∀ (n : ℕ) (hn : n < cfg0.N) (p : Fin 512) (q : Fin 4096),
    (outsAt0 m c n hn).2 (ix2 p q)
      = ∑ j ∈ Finset.range (n % 128 + 1), part (rowsX m c) (matW1 m c) (vecB1 m c) (matW2 m c) (row (n / 128) p) q j := by
  intro n
  induction n with
  | zero =>
    intro hn p q
    refine (acc_at_first m c ⟨0, hn⟩ rfl p q).trans ?_
    show part (rowsX m c) (matW1 m c) (vecB1 m c) (matW2 m c) (row (0 / 128) p) q 0 = ∑ j ∈ Finset.range (0 % 128 + 1), _
    rw [Nat.zero_mod, Nat.zero_add, Finset.sum_range_one]
  | succ n ih =>
    intro hn p q
    by_cases h0 : (n + 1) % 128 = 0
    · refine (acc_at_first m c ⟨n + 1, hn⟩ h0 p q).trans ?_
      show part (rowsX m c) (matW1 m c) (vecB1 m c) (matW2 m c) (row ((n + 1) / 128) p) q 0 = _
      rw [h0, Nat.zero_add, Finset.sum_range_one]
    · refine (acc_at_later m c ⟨n + 1, hn⟩ h0 p q).trans ?_
      show (outsAt0 m c n _).2 (ix2 p q) + part (rowsX m c) (matW1 m c) (vecB1 m c) (matW2 m c) (row ((n + 1) / 128) p) q ((n + 1) % 128) = _
      rw [ih (Nat.lt_of_succ_lt hn) p q]
      have e1 : n / 128 = (n + 1) / 128 := by omega
      have e2 : n % 128 + 1 = (n + 1) % 128 := by omega
      rw [e1, e2, ← Finset.sum_range_succ]

/-- The output block stored at a row block's last point is the perceptron's output on the block's rows. -/
theorem out_eq (c : Dev nD) (t : Fin cfg0.N) (h1 : t.val % 128 = 127) (p : Fin 512) (q : Fin 4096) :
    (outsAt0 m c t.val t.isLt).1 (ix2 p q)
      = mlp (rowsX m c) (matW1 m c) (vecB1 m c) (matW2 m c) (vecB2 m c) (row (t.val / 128) p) q := by
  have h0 : ¬t.val % 128 = 0 := by omega
  have hpos : 0 < t.val := by omega
  rw [outsAt0_C m c t h0 h1]
  dsimp only
  refine (congrFun (out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk m c t) (w1blk m c t) (b1blk m c t) (w2blk m c t) (b2blk m c t) (prevAcc m c t)) (ix2 p q)).trans ?_
  refine (pay1_apply (k0_pay3 (xblk m c t) (w1blk m c t) (b1blk m c t) (w2blk m c t) (prevAcc m c t)) (b2blk m c t) p q).trans ?_
  rw [b2blk_apply]
  unfold mlp
  refine congrArg (· + vecB2 m c q) ?_
  refine (update_apply m c t (prevAcc m c t) p q).trans ?_
  rw [show prevAcc m c t (ix2 p q) = _ from acc_eq m c (t.val - 1) (Nat.lt_of_le_of_lt (Nat.sub_le _ _) t.isLt) p q]
  have e1 : (t.val - 1) / 128 = t.val / 128 := by omega
  have e2 : (t.val - 1) % 128 + 1 = 127 := by omega
  rw [e1, e2, h1, ← Finset.sum_range_succ]
  exact sum_part _ _ _ _ _ _

end Cert.KernelIdeal.Acc

end
-- ==== Proof.KernelValue.lean ====
/-
  What the kernel's program leaves in its result, as one function of the five argument arrays.

  The output's [512, 4096] block is written back only at a row block's last point (grid points t with t % 128 = 127),
  and there it holds the perceptron's output on rows 512 (t / 128) … 512 (t / 128) + 511. The sixteen written blocks
  tile the [8192, 4096] array, so the array ends at the perceptron's output row by row; the host's reshape after the
  call lays the same values out as [4, 2048, 4096].
-/
import proofs.«173085_j76270029243058_1_alg».proof.Proof.Accumulate
import Idealize.ShloMosaic.Lib.Pipeline.Value
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.Mlp Cert.KernelIdeal.Blocks Cert.KernelIdeal.Acc

variable (m : (ℓ : Loc nD τ sig) → Buf (Elt Ideal) ℓ) (ρ : Dev nD → PrngReg)

/-- The perceptron's output by flattened row, of core c's arguments. -/
abbrev rows (c : Dev nD) : S8192x4096.Idx → EReal := rowsResult (argX m c) (argW1 m c) (argB1 m c) (argW2 m c) (argB2 m c)

/-- The block stored at a row block's last point, entry by entry: entry j of the block is entry i of `rows` whenever
    i is j moved down by the row block's 512 (t / 128) rows. -/
theorem out_block (c : Dev nD) (t : Fin cfg0.N) (h1 : t.val % 128 = 127) (j : S512x4096.Idx) (i : S8192x4096.Idx)
    (hi0 : (i 0).val = t.val / 128 * 512 + (j 0).val) (hi1 : (i 1).val = (j 1).val) :
    (outsAt0 m c t.val t.isLt).1 j = rows m c i := by
  have hN : t.val < 2048 := lt_of_lt_of_eq t.isLt (show cfg0.N = 2048 from N_0)
  obtain ⟨p, q, rfl⟩ : ∃ (p : Fin 512) (q : Fin 4096), j = ix2 p q := ⟨j 0, j 1, eq_ix2 j⟩
  rw [out_eq m c t h1 p q]
  show _ = mlp (rowsX m c) (matW1 m c) (vecB1 m c) (matW2 m c) (vecB2 m c) _ _
  congr 1 <;> apply Fin.ext
  · show (t.val / 128 % 16) * 512 + p.val = (i 0).val
    rw [hi0]; show _ = t.val / 128 * 512 + p.val; omega
  · show q.val = (i 1).val
    rw [hi1]

/-- What a row block's last point writes back is its block of `rows`. -/
theorem flushed_eq (c : Dev nD) (t : Fin cfg0.N) (hf : (cfg0.win 5).flush t = true) :
    (dats m 0 c).flushed 5 t = ((cfg0.win 5).blk t).view.read (Elt Ideal) (rows m c) := by
  have h1 : t.val % 128 = 127 := (flush0_5 t).mp hf
  obtain ⟨-, -, -, -, -, -, -, -, -, -, e0, e1⟩ := block_indices t
  show (cfg0.win 5).cut (grid0.coords t) ((dats m 0 c).after 5 t) = _
  rw [after0_5]
  funext y
  rw [View.read_apply]
  refine out_block m c t h1 ((cfg0.win 5).xinj (grid0.coords t) y) (((cfg0.win 5).blk t).view.emb y) ?_ ?_
  · show win0_5.index t (0 : Fin 2) * 512 + 1 * (y 0).val = t.val / 128 * 512 + (y 0).val
    rw [e0]; omega
  · show win0_5.index t (1 : Fin 2) * 4096 + 1 * (y 1).val = (y 1).val
    rw [e1]; omega

/-- Every entry of the [8192, 4096] array lies in the block written at the last point of its row block. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 2048 := N_0
  let t : Fin cfg0.N := ⟨(i 0).val / 512 * 128 + 127, by rw [hN]; omega⟩
  have ht : t.val = (i 0).val / 512 * 128 + 127 := rfl
  obtain ⟨-, -, -, -, -, -, -, -, -, -, e0, e1⟩ := block_indices t
  refine ⟨t, (flush0_5 t).mpr (by rw [ht]; omega), ?_⟩
  show i ∈ ((View.whole main_v6).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 4096 ≤ (i 1).val ∧ (i 1).val < win0_5.index t (1 : Fin 2) * 4096 + 4096
    rw [e1]; omega

/-- So the call's result array ends at `rows`. -/
theorem final_rows (c : Dev nD) : (dats m 0 c).arrAt 5 cfg0.N = rows m c :=
  (dats m 0 c).arrAt_eq_of_cover 5 (rows m c) (flushed_eq m c) cover

/-- The program's result: the perceptron's output laid out [4, 2048, 4096]. -/
abbrev result (c : Dev nD) : S4x2048x4096.Idx → EReal := target (argX m c) (argW1 m c) (argB1 m c) (argW2 m c) (argB2 m c)

/-- The host's reshape of the call's result is that. -/
theorem tail_eq (c : Dev nD) :
    Pipeline.afterTail₀ cfgs (dats m) 0 (V0 m) [hostOps1] c main_v7 = result m c := by
  unfold Pipeline.afterTail₀
  show StableHlo.after hostOps1 _ (Proc.devRef .tc main_v7) = _
  after_results
  rw [(Pipeline.withArrays_arr spec0 launch0.win.arr_inj c _ _ 5).trans (final_rows m c)]
  funext i
  obtain ⟨b, s, d, rfl⟩ : ∃ (b : Fin 4) (s : Fin 2048) (d : Fin 4096), i = ix3 b s d := ⟨i 0, i 1, i 2, eq_ix3 i⟩
  refine shapeCast_apply _ _ (ix3 b s d) (ix2 (flatRow b s) d) ?_
  rw [Shape.rowMajor_val_three, Shape.rowMajor_val_two]
  rfl

/-- The run, read: the result at the perceptron's output of the arguments, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefValue.lean ====
/-
  The reference computes the perceptron: its operations, read one at a time at an index, give at (b, s, d)
      (∑ f, gelu ((∑ k, X b s k · W1 k f) + B1 f) · W2 f d) + B2 d,
  the two contractions as sums over the contracted axis, the broadcasts reading the bias at the last coordinate,
  the scalar constants the four patterns of the GELU, and the cube spelled (u · u) · u.
-/
import proofs.«173085_j76270029243058_1_alg».proof.Proof.Gen.ReferenceIdeal.Read
import proofs.«173085_j76270029243058_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Mlp

/-- The first contraction plus the first bias at (b, s, f). -/
theorem preact_apply (X : (⟨S4x2048x4096, .f32⟩ : BufTy).Contents (Elt Ideal)) (W1 : (⟨S4096x16384, .f32⟩ : BufTy).Contents (Elt Ideal))
    (B1 : (⟨S16384, .f32⟩ : BufTy).Contents (Elt Ideal)) (b : Fin 4) (s : Fin 2048) (f : Fin 16384) :
    val_main_v3 (F := Ideal) X W1 B1 (ix3 b s f) = (∑ k : Fin 4096, X (ix3 b s k) * W1 (ix2 k f)) + B1 (ix1 f) := by
  have el : ∀ k : Fin 4096, lidx_main_v0 (ix3 b s f) k = ix3 b s k := fun k => funext fun a => Fin.ext (by
    match a with
    | ⟨0, _⟩ => rfl
    | ⟨1, _⟩ => rfl
    | ⟨2, _⟩ => rfl)
  have er : ∀ k : Fin 4096, ridx_main_v0 (ix3 b s f) k = ix2 k f := fun k => funext fun a => Fin.ext (by
    match a with
    | ⟨0, _⟩ => rfl
    | ⟨1, _⟩ => rfl)
  have eb : idx_main_v1 (idx_main_v2 (ix3 b s f)) = ix1 f := funext fun a => Fin.ext (by
    match a with
    | ⟨0, _⟩ => rfl)
  rw [val_main_v3_apply, val_main_v0_apply, val_main_v2_apply, val_main_v1_apply, eb]
  simp only [el, er]
  rfl

/-- The activated hidden value at (b, s, f). -/
theorem hidden_apply (X : (⟨S4x2048x4096, .f32⟩ : BufTy).Contents (Elt Ideal)) (W1 : (⟨S4096x16384, .f32⟩ : BufTy).Contents (Elt Ideal))
    (B1 : (⟨S16384, .f32⟩ : BufTy).Contents (Elt Ideal)) (b : Fin 4) (s : Fin 2048) (f : Fin 16384) :
    val_main_v16 (F := Ideal) X W1 B1 (ix3 b s f) = gelu ((∑ k : Fin 4096, X (ix3 b s k) * W1 (ix2 k f)) + B1 (ix1 f)) := by
  simp only [val_main_v16_apply, val_main_v15_apply, val_main_v14_apply, val_main_cst_2_apply, val_main_v13_apply, val_main_v12_apply, val_main_cst_1_apply, val_main_v11_apply, val_main_v10_apply, val_main_v9_apply, val_main_cst_0_apply, val_main_v8_apply, val_main_v7_apply, val_main_v6_apply, val_main_cst_apply, val_main_v5_apply, val_main_v4_apply]
  rw [preact_apply]
  exact gelu_cube_left _

/-- The reference's result is the perceptron's output, laid out [4, 2048, 4096]. -/
theorem result_eq (X : (⟨S4x2048x4096, .f32⟩ : BufTy).Contents (Elt Ideal)) (W1 : (⟨S4096x16384, .f32⟩ : BufTy).Contents (Elt Ideal))
    (B1 : (⟨S16384, .f32⟩ : BufTy).Contents (Elt Ideal)) (W2 : (⟨S16384x4096, .f32⟩ : BufTy).Contents (Elt Ideal))
    (B2 : (⟨S4096, .f32⟩ : BufTy).Contents (Elt Ideal)) :
    val_main_v20 (F := Ideal) X W1 B1 W2 B2 = target X W1 B1 W2 B2 := by
  funext i
  obtain ⟨b, s, d, rfl⟩ : ∃ (b : Fin 4) (s : Fin 2048) (d : Fin 4096), i = ix3 b s d := ⟨i 0, i 1, i 2, eq_ix3 i⟩
  have el : ∀ f : Fin 16384, lidx_main_v17 (ix3 b s d) f = ix3 b s f := fun f => funext fun a => Fin.ext (by
    match a with
    | ⟨0, _⟩ => rfl
    | ⟨1, _⟩ => rfl
    | ⟨2, _⟩ => rfl)
  have er : ∀ f : Fin 16384, ridx_main_v17 (ix3 b s d) f = ix2 f d := fun f => funext fun a => Fin.ext (by
    match a with
    | ⟨0, _⟩ => rfl
    | ⟨1, _⟩ => rfl)
  have eb : idx_main_v18 (idx_main_v19 (ix3 b s d)) = ix1 d := funext fun a => Fin.ext (by
    match a with
    | ⟨0, _⟩ => rfl)
  rw [target_apply, val_main_v20_apply, val_main_v17_apply, val_main_v19_apply, val_main_v18_apply, eb]
  simp only [el, er, hidden_apply]
  rfl

end Cert.ReferenceIdeal.RefValue

end
-- ==== Proof.lean ====
/-
  A fused two-layer perceptron with the tanh-approximated GELU, against the two einsums of the reference.

  The kernel flattens the [4, 2048, 4096] input to 8192 rows and walks a 16 × 128 grid: for each block of 512 rows it
  visits the 128 blocks of 128 hidden columns in turn, keeping a [512, 4096] accumulator that it zeroes at the first
  visit, raises at every visit by (the activated [512, 128] block) · (the matching [128, 4096] rows of the second
  weight), and stores, plus the output bias, at the last. The reference contracts over all 16384 hidden columns at once.

  Over the extended reals the two agree entry by entry: narrowing to bf16 is the identity; a matrix-unit product
  into zeros and the host's contraction are the same sum; both sides apply the same GELU with the same four
  constants (the cube as u·(u·u) on one side and (u·u)·u on the other: multiplication commutes); and the kernel's
  ordered sum of the 128 blocks' shares, starting from zero, is the sum over all hidden columns because addition of
  extended reals is commutative and associative. No finiteness of the inputs is used.

  The word-level and the idealized kernel never fault and leave their arguments unchanged (the generated frames);
  the reference's frame is its generated run with the result dropped; the ideal pass rewrote nothing.
-/
import proofs.«173085_j76270029243058_1_alg».proof.Defs
import proofs.«173085_j76270029243058_1_alg».proof.Proof.Gen.Kernel
import proofs.«173085_j76270029243058_1_alg».proof.Proof.Gen.Kernel.Skeleton
import proofs.«173085_j76270029243058_1_alg».proof.Proof.Gen.Kernel.Launch
import proofs.«173085_j76270029243058_1_alg».proof.Proof.Gen.Kernel.Points
import proofs.«173085_j76270029243058_1_alg».proof.Proof.Gen.Kernel.Frame
import proofs.«173085_j76270029243058_1_alg».proof.Proof.Gen.KernelIdeal
import proofs.«173085_j76270029243058_1_alg».proof.Proof.Gen.KernelIdeal.Skeleton
import proofs.«173085_j76270029243058_1_alg».proof.Proof.Gen.KernelIdeal.Launch
import proofs.«173085_j76270029243058_1_alg».proof.Proof.Gen.KernelIdeal.Points
import proofs.«173085_j76270029243058_1_alg».proof.Proof.Gen.KernelIdeal.Frame
import proofs.«173085_j76270029243058_1_alg».proof.Proof.Gen.ReferenceIdeal
import proofs.«173085_j76270029243058_1_alg».proof.Proof.Gen.ReferenceIdeal.Run
import proofs.«173085_j76270029243058_1_alg».proof.Proof.Gen.ReferenceIdeal.Read
import proofs.«173085_j76270029243058_1_alg».proof.Proof.Gen.Pre_finite_inputs
import proofs.«173085_j76270029243058_1_alg».proof.Proof.KernelValue
import proofs.«173085_j76270029243058_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run keeps its arguments. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the perceptron's output of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
